-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 11
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.SqDist.lean ====
/-
  The function both programs compute: the squared Euclidean distance between every row of one
  8192 × 128 matrix and every row of another, in the expanded form
      ‖a_r‖² + ‖b_s‖² − 2 · ⟨a_r, b_s⟩
  over the extended reals.  A row's squared norm is written exactly as a host sum delivers it: the
  sum's initial value (the f32 word of zero) plus the sum of the 128 squares; the factor two is kept
  as the f32 word both programs carry, never evaluated.
-/
import Idealize.ShloMosaic.PureOps.Ideal
import Idealize.ShloMosaic.Lib.ValueIdx

noncomputable section

namespace Cert.SqDist

open Idealize.ShloMosaic Idealize.ShloMosaic.ValueIdx

/-- The two matrices of points: 8192 rows of 128 coordinates. -/
abbrev Pts : Shape := ⟨2, ![8192, 128]⟩
/-- The table of distances: one entry per pair of rows. -/
abbrev Tbl : Shape := ⟨2, ![8192, 8192]⟩

/-- The squared norm of row `r`: the zero word plus the sum over the coordinates of their squares. -/
def sqNorm (x : Pts.Idx → EReal) (r : Fin 8192) : EReal :=
  Ideal.ofBits .f32 0x00000000#32 + ∑ k : Fin 128, x (ix2 r k) * x (ix2 r k)

/-- The inner product of row `r` of `a` with row `s` of `b`. -/
def inner (a b : Pts.Idx → EReal) (r s : Fin 8192) : EReal :=
  ∑ k : Fin 128, a (ix2 r k) * b (ix2 s k)

/-- The table of squared distances, entry `(r, s)`: `(‖a_r‖² + ‖b_s‖²) − 2 · ⟨a_r, b_s⟩`. -/
def table (a b : Pts.Idx → EReal) : Tbl.Idx → EReal := fun i =>
  (sqNorm a (i 0) + sqNorm b (i 1)) - Ideal.ofBits .f32 0x40000000#32 * inner a b (i 0) (i 1)

theorem table_ix2 (a b : Pts.Idx → EReal) (r s : Fin 8192) :
    table a b (ix2 r s) = (sqNorm a r + sqNorm b s) - Ideal.ofBits .f32 0x40000000#32 * inner a b r s := rfl

end Cert.SqDist

end
-- ==== Proof.RefSide.lean ====
/-
  The reference program's result, read entry by entry, is the table of squared distances: its two
  row sums are the squared norms, its contraction of the two matrices over their coordinate axis is
  the inner product, and the broadcasts only carry an entry's row and column to where they are used.
-/
import proofs.«155831_j42666205118575_1_alg».proof.Proof.Gen.ReferenceIdeal.Read
import proofs.«155831_j42666205118575_1_alg».proof.Proof.SqDist

noncomputable section

namespace Cert.ReferenceIdeal.Dist

open Cert.ReferenceIdeal Cert.ReferenceIdeal.Gen Cert.ReferenceIdeal.Read
open Idealize.ShloMosaic Idealize.ShloMosaic.ValueIdx Cert.SqDist

/-- Entry `i` of the first squared-norm column, carried through its two broadcasts, sums row `i 0`. -/
theorem row_of_first (i : S8192x8192.Idx) (k : Fin 128) :
    idx_main_v1 (idx_main_v2 (idx_main_v7 i)) k = ix2 (i 0) k :=
  funext fun a => Fin.ext (by match a with | ⟨0, _⟩ => rfl | ⟨1, _⟩ => rfl)

/-- Entry `i` of the second squared-norm row, carried through its two broadcasts, sums row `i 1`. -/
theorem row_of_second (i : S8192x8192.Idx) (k : Fin 128) :
    idx_main_v4 (idx_main_v6 (idx_main_v8 i)) k = ix2 (i 1) k :=
  funext fun a => Fin.ext (by match a with | ⟨0, _⟩ => rfl | ⟨1, _⟩ => rfl)

/-- The contraction's left factor at entry `i` runs along row `i 0`. -/
theorem left_factor (i : S8192x8192.Idx) (k : Fin 128) : lidx_main_v5 i k = ix2 (i 0) k :=
  funext fun a => Fin.ext (by match a with | ⟨0, _⟩ => rfl | ⟨1, _⟩ => rfl)

/-- The contraction's right factor at entry `i` runs along row `i 1`. -/
theorem right_factor (i : S8192x8192.Idx) (k : Fin 128) : ridx_main_v5 i k = ix2 (i 1) k :=
  funext fun a => Fin.ext (by match a with | ⟨0, _⟩ => rfl | ⟨1, _⟩ => rfl)

/-- The reference's last stage is the table of squared distances of its two arguments. -/
theorem result_eq (x0 x1 : (⟨S8192x128, .f32⟩ : BufTy).Contents (Elt Ideal)) :
    val_main_v12 (F := Ideal) x0 x1 = table x0 x1 := by
  funext i
  rw [val_main_v12_apply, val_main_v9_apply, val_main_v11_apply, val_main_v7_apply, val_main_v8_apply,
    val_main_v2_apply, val_main_v6_apply, val_main_v1_apply, val_main_v4_apply, val_main_v10_apply,
    val_main_cst_1_apply, val_main_v5_apply, val_main_cst_apply, val_main_cst_0_apply]
  simp only [val_main_v0_apply, val_main_v3_apply, row_of_first, row_of_second, left_factor, right_factor,
    Ideal.subf_def, Ideal.addf_def, Ideal.mulf_def, Ideal.ofBits_def]
  rfl

end Cert.ReferenceIdeal.Dist

end
-- ==== Proof.KernelEntry.lean ====
/-
  One entry of what the kernel body stores, and one entry of each of the two arrays of squared norms
  the host prepares for it, over the extended reals.
  The body forms, for a block of 1024 rows of the first matrix and 2048 rows of the second, the
  contraction of the two blocks over their 128 coordinates into a zero accumulator — at an entry
  `(p, q)` the plain sum of the products along row `p` and row `q` —, and stores
  `(n₁ p + n₂ q) − 2 · that sum`, where `n₁` is its column of squared norms and `n₂` its row of them,
  each broadcast across the block.  Narrowing the blocks to sixteen bits changes nothing here.
-/
import proofs.«155831_j42666205118575_1_alg».proof.Proof.Gen.KernelIdeal.Skeleton
import proofs.«155831_j42666205118575_1_alg».proof.Proof.SqDist
import Idealize.ShloMosaic.Lib.ValueIdx
import Idealize.ShloMosaic.Lib.Pipeline.Value
import Idealize.ShloMosaic.PureOps.Ideal.Laws

noncomputable section

namespace Cert.KernelIdeal.Dist

open Cert.KernelIdeal Cert.KernelIdeal.Gen
open Idealize.ShloMosaic Idealize.ShloMosaic.ValueIdx Cert.SqDist

/-! ## The block contraction at an entry -/

/-- The left operand's row coordinate is the entry's row. -/
theorem lhs_row (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- The left operand's coordinate axis carries the summation index. -/
theorem lhs_coord (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- The right operand's row coordinate is the entry's column. -/
theorem rhs_row (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- The right operand's coordinate axis carries the summation index. -/
theorem rhs_coord (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- Into the zero accumulator the block contraction at `(p, q)` is `∑ k, x[p, k] · y[q, k]`. -/
theorem contraction_entry {φ₁ φ₂ : FTy} (x : FVec Ideal S1024x128 φ₁) (y : FVec Ideal S2048x128 φ₂) (p : Fin 1024) (q : Fin 2048) :
    matmul dot_S1024x128_S2048x128_S1024x2048_1_1_0_0_n_n none x y (constant S1024x2048 .f32 0x00000000#32) (ix2 p q)
      = ∑ k : Fin 128, x (ix2 p k) * y (ix2 q k) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p q) ((contrEquiv1 dot_S1024x128_S2048x128_S1024x2048_1_1_0_0_n_n 128 rfl rfl).symm k) = ix2 p k := funext fun a => Fin.ext (by
    match a with
    | ⟨0, _⟩ => exact lhs_row _ _
    | ⟨1, _⟩ => exact (lhs_coord _ _).trans hk)
  have er : dot_S1024x128_S2048x128_S1024x2048_1_1_0_0_n_n.rhsIdx (ix2 p q) ((contrEquiv1 dot_S1024x128_S2048x128_S1024x2048_1_1_0_0_n_n 128 rfl rfl).symm k) = ix2 q k := funext fun a => Fin.ext (by
    match a with
    | ⟨0, _⟩ => exact rhs_row _ _
    | ⟨1, _⟩ => exact (rhs_coord _ _).trans hk)
  rw [el, er]

/-! ## The stored value at an entry -/

/-- The column of squared norms, spread across the block's 2048 columns, reads its row's entry. -/
theorem spread_column (v : FVec Ideal S1024x1 .f32) (p : Fin 1024) (q : Fin 2048) :
    broadcastTo S1024x2048 (shapeCast S1024x1 v shapeCasts_S1024x1_S1024x1) broadcasts_S1024x1_S1024x2048 (ix2 p q) = v (ix2 p 0) := by
  rw [shapeCast_self]
  exact broadcastTo_apply _ _ _ (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- The row of squared norms, spread across the block's 1024 rows, reads its column's entry. -/
theorem spread_row (v : FVec Ideal S1x2048 .f32) (p : Fin 1024) (q : Fin 2048) :
    broadcastTo S1024x2048 (shapeCast S1x2048 v shapeCasts_S1x2048_S1x2048) broadcasts_S1x2048_S1024x2048 (ix2 p q) = v (ix2 0 q) := by
  rw [shapeCast_self]
  exact broadcastTo_apply _ _ _ (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- What the body stores at `(p, q)`: `(n₁[p] + n₂[q]) − 2 · ∑ k, a[p, k] · b[q, k]`. -/
theorem stored_entry (a : Vec Ideal S1024x128 .f32) (b : Vec Ideal S2048x128 .f32) (n1 : Vec Ideal S1024x1 .f32) (n2 : Vec Ideal S1x2048 .f32)
    (p : Fin 1024) (q : Fin 2048) :
    k0_pay1 (F := Ideal) a b n1 n2 (ix2 p q)
      = (n1 (ix2 p 0) + n2 (ix2 0 q)) - Ideal.ofBits .f32 0x40000000#32 * ∑ k : Fin 128, a (ix2 p k) * b (ix2 q k) := by
  have hc := contraction_entry (truncf .bf16 a bitsLt_bf16_f32) (truncf .bf16 b bitsLt_bf16_f32) p q
  have h1 := spread_column n1 p q
  have h2 := spread_row n2 p q
  unfold k0_pay1
  show (broadcastTo S1024x2048 (shapeCast S1024x1 n1 shapeCasts_S1024x1_S1024x1) broadcasts_S1024x1_S1024x2048 (ix2 p q)
        + broadcastTo S1024x2048 (shapeCast S1x2048 n2 shapeCasts_S1x2048_S1x2048) broadcasts_S1x2048_S1024x2048 (ix2 p q))
      - Ideal.ofBits .f32 0x40000000#32
        * matmul (F := Ideal) dot_S1024x128_S2048x128_S1024x2048_1_1_0_0_n_n none (truncf (F := Ideal) .bf16 a bitsLt_bf16_f32) (truncf (F := Ideal) .bf16 b bitsLt_bf16_f32)
            (constant (F := Ideal) S1024x2048 .f32 0x00000000#32) (ix2 p q) = _
  rw [h1, h2, hc]
  rfl

/-! ## The host's two arrays of squared norms at an entry -/

/-- The host's sum of a matrix's squares along its coordinate axis, at row `r`, is that row's squared norm. -/
theorem row_sum (x : FVec Ideal S8192x128 .f32) (r : Fin 8192) :
    Host.reduceAdd (mulf x x) (constant S_ .f32 0x00000000#32) reducesTo_S8192x128_S8192_d1 h_S_ (ix1 r) = sqNorm x r := by
  simp only [Host.reduceAdd, Ideal.hostReduceAdd_def]
  rw [Ideal.hostReduceAdd_single reducesTo_S8192x128_S8192_d1 (by decide)]
  unfold sqNorm
  refine congrArg (_ + ·) (Finset.sum_congr rfl fun k _ => ?_)
  have e : (show Shape.Reduces S8192x128 [1] S8192 by decide).lift (ix1 r) k = ix2 r k :=
    funext fun a => Fin.ext (by match a with | ⟨0, _⟩ => rfl | ⟨1, _⟩ => rfl)
  rw [e]
  rfl

/-- The squared norms laid out as a column: the entry in row `r` is row `r`'s. -/
theorem norm_column (x : FVec Ideal S8192x128 .f32) (i : S8192x1.Idx) (r : Fin 8192) (hr : (i 0).val = r.val) :
    broadcastInDim S8192x1 ![0] bcast_S8192_S8192x1_0
      (Host.reduceAdd (mulf x x) (constant S_ .f32 0x00000000#32) reducesTo_S8192x128_S8192_d1 h_S_) i = sqNorm x r :=
  (broadcastInDim_apply _ bcast_S8192_S8192x1_0 _ i (ix1 r) (fun a => match a with
    | ⟨0, _⟩ => by show r.val = if (8192 : Nat) = 1 then 0 else (i 0).val; rw [if_neg (by decide)]; exact hr.symm)).trans
    (row_sum x r)

/-- The squared norms laid out as a row: the entry in column `s` is row `s`'s. -/
theorem norm_row (x : FVec Ideal S8192x128 .f32) (i : S1x8192.Idx) (s : Fin 8192) (hs : (i 1).val = s.val) :
    broadcastInDim S1x8192 ![1] bcast_S8192_S1x8192_1
      (Host.reduceAdd (mulf x x) (constant S_ .f32 0x00000000#32) reducesTo_S8192x128_S8192_d1 h_S_) i = sqNorm x s :=
  (broadcastInDim_apply _ bcast_S8192_S1x8192_1 _ i (ix1 s) (fun a => match a with
    | ⟨0, _⟩ => by show s.val = if (8192 : Nat) = 1 then 0 else (i 1).val; rw [if_neg (by decide)]; exact hs.symm)).trans
    (row_sum x s)

end Cert.KernelIdeal.Dist

end
-- ==== Proof.KernelTable.lean ====
/-
  The kernel's result array is the table of squared distances.
  The grid has 8 × 4 points; point `(g, h)` works on rows `1024 g …` of the first matrix, rows
  `2048 h …` of the second, the matching 1024 entries of the column of squared norms and 2048 entries
  of the row of them, and writes block `(g, h)` of the table.  Entry `(p, q)` of that block is entry
  `(1024 g + p, 2048 h + q)` of the table: the two norms it adds are those of these two rows, and its
  sum of products runs along them.  The 32 blocks tile the table, so after the last point the array
  holds the table everywhere.
-/
import proofs.«155831_j42666205118575_1_alg».proof.Proof.Gen.KernelIdeal.Value
import proofs.«155831_j42666205118575_1_alg».proof.Proof.KernelEntry

set_option maxRecDepth 16384

noncomputable section

namespace Cert.KernelIdeal.Dist

open Cert.KernelIdeal Cert.KernelIdeal.Gen
open Idealize.ShloMosaic Idealize.ShloMosaic.TcCoe Idealize.SL.Sem Idealize.ShloMosaic.ValueIdx Cert.SqDist
open Idealize.ShloMosaic.Pipeline (Dat)

variable (m : (ℓ : Loc nD τ sig) → Buf (Elt Ideal) ℓ) (ρ : Dev nD → PrngReg)

/-- The first matrix as launched. -/
abbrev matA (c : Dev nD) : FVec Ideal S8192x128 .f32 := m ((c : Thread nD τ).loc main_arg0)
/-- The second matrix as launched. -/
abbrev matB (c : Dev nD) : FVec Ideal S8192x128 .f32 := m ((c : Thread nD τ).loc main_arg1)

/-! ## The arrays the grid finds -/

/-- The column of squared norms the host has written when the grid starts. -/
theorem found_column (c : Dev nD) :
    (V m c main_v2 : S8192x1.Idx → EReal)
      = broadcastInDim S8192x1 ![0] bcast_S8192_S8192x1_0
          (Host.reduceAdd (mulf (matA m c) (matA m c)) (constant (F := Ideal) S_ .f32 0x00000000#32) reducesTo_S8192x128_S8192_d1 h_S_) := by
  dsimp only [Gen.V, Gen.hostOps0]; after_results

/-- The row of squared norms the host has written when the grid starts. -/
theorem found_row (c : Dev nD) :
    (V m c main_v5 : S1x8192.Idx → EReal)
      = broadcastInDim S1x8192 ![1] bcast_S8192_S1x8192_1
          (Host.reduceAdd (mulf (matB m c) (matB m c)) (constant (F := Ideal) S_ .f32 0x00000000#32) reducesTo_S8192x128_S8192_d1 h_S_) := by
  dsimp only [Gen.V, Gen.hostOps0]; after_results

/-! ## Where each window's block sits at a point -/

/-- Decided over the 32 points: the first matrix's and the norm column's blocks follow the output block's row index, the
    second matrix's and the norm row's its column index; the other block indices are zero; the output's stay in range. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every block of the 8 × 4 arrangement is some point's. -/
theorem block_reached : ∀ (g : Fin 8) (h : Fin 4), ∃ t : Fin cfg0.N, win0_4.index t = ![g.val, h.val] :=
  (by decide +kernel : ∀ (g : Fin 8) (h : Fin 4), ∃ t : Fin grid0.N, win0_4.index t = ![g.val, h.val])

theorem zeros : (![0, 0] : Fin 2 → Nat) = fun _ => 0 := funext fun a => by fin_cases a <;> rfl

/-! ## What a point writes back -/

/-- An entry of a block, in terms of the whole matrices: with the block's rows read from rows `R` and `S` of the two
    matrices and its two norms those rows' squared norms, the stored value is the table's entry `(R, S)`. -/
theorem stored_is_table (A B : FVec Ideal S8192x128 .f32) (a : Vec Ideal S1024x128 .f32) (b : Vec Ideal S2048x128 .f32)
    (n1 : Vec Ideal S1024x1 .f32) (n2 : Vec Ideal S1x2048 .f32) (R S : Fin 8192) (p : Fin 1024) (q : Fin 2048)
    (ha : ∀ k : Fin 128, a (ix2 p k) = A (ix2 R k)) (hb : ∀ k : Fin 128, b (ix2 q k) = B (ix2 S k))
    (h1 : n1 (ix2 p 0) = sqNorm A R) (h2 : n2 (ix2 0 q) = sqNorm B S) :
    k0_pay1 (F := Ideal) a b n1 n2 (ix2 p q) = table A B (ix2 R S) := by
  rw [stored_entry, table_ix2, h1, h2]
  unfold Cert.SqDist.inner
  simp only [ha, hb]

/-- Point `t` writes back block `t` of the table of squared distances of the two matrices as launched. -/
theorem written_block (c : Dev nD) (t : Fin cfg0.N) :
    (dats m 0 c).flushed 4 t = ((cfg0.win 4).blk t).view.read (Elt Ideal) (table (matA m c) (matB m c)) := by
  rw [Value.flushed4]
  unfold out0_4
  rw [View.canon_unit_zero zeros]
  simp only [View.ld_unit_zero (S := S1024x128) zeros, View.ld_unit_zero (S := S2048x128) zeros,
    View.ld_unit_zero (S := S1024x1) zeros, View.ld_unit_zero (S := S1x2048) zeros]
  obtain ⟨e00, e01, e10, e11, e20, e21, e30, e31, -, -⟩ := block_indices t
  funext j
  show k0_pay1 (F := Ideal) (iblk m c 0 t) (iblk m c 1 t) (iblk m c 2 t) (iblk m c 3 t) j
      = table (matA m c) (matB m c) (((cfg0.win 4).blk t).view.emb j)
  have hj0 : (j 0).val < 1024 := (j 0).isLt
  have hj1 : (j 1).val < 2048 := (j 1).isLt
  have hR : ((((cfg0.win 4).blk t).view.emb j) 0).val = win0_4.index t (0 : Fin 2) * 1024 + 1 * (j 0).val := rfl
  have hS : ((((cfg0.win 4).blk t).view.emb j) 1).val = win0_4.index t (1 : Fin 2) * 2048 + 1 * (j 1).val := rfl
  refine (congrArg (k0_pay1 (F := Ideal) (iblk m c 0 t) (iblk m c 1 t) (iblk m c 2 t) (iblk m c 3 t)) (eq_ix2 j)).trans ?_
  refine (stored_is_table (matA m c) (matB m c) (iblk m c 0 t) (iblk m c 1 t) (iblk m c 2 t) (iblk m c 3 t)
    ((((cfg0.win 4).blk t).view.emb j) 0) ((((cfg0.win 4).blk t).view.emb j) 1) (j 0) (j 1) ?_ ?_ ?_ ?_).trans
    (congrArg (table (matA m c) (matB m c)) (eq_ix2 _).symm)
  · intro k
    show V m c main_arg0 (((cfg0.win 0).blk t).view.emb (ix2 (j 0) k)) = _
    rw [V_main_arg0]
    refine congrArg (matA m c) (funext fun a => Fin.ext ?_)
    match a with
    | ⟨0, _⟩ => show win0_0.index t (0 : Fin 2) * 1024 + 1 * (j 0).val = _; rw [hR]; omega
    | ⟨1, _⟩ => show win0_0.index t (1 : Fin 2) * 128 + 1 * k.val = k.val; omega
  · intro k
    show V m c main_arg1 (((cfg0.win 1).blk t).view.emb (ix2 (j 1) k)) = _
    rw [V_main_arg1]
    refine congrArg (matB m c) (funext fun a => Fin.ext ?_)
    match a with
    | ⟨0, _⟩ => show win0_1.index t (0 : Fin 2) * 2048 + 1 * (j 1).val = _; rw [hS]; omega
    | ⟨1, _⟩ => show win0_1.index t (1 : Fin 2) * 128 + 1 * k.val = k.val; omega
  · show V m c main_v2 (((cfg0.win 2).blk t).view.emb (ix2 (j 0) 0)) = _
    refine (congrFun (found_column m c) _).trans (norm_column (matA m c) _ _ ?_)
    show win0_2.index t (0 : Fin 2) * 1024 + 1 * (j 0).val = _
    rw [hR]; omega
  · show V m c main_v5 (((cfg0.win 3).blk t).view.emb (ix2 0 (j 1))) = _
    refine (congrFun (found_row m c) _).trans (norm_row (matB m c) _ _ ?_)
    show win0_3.index t (1 : Fin 2) * 2048 + 1 * (j 1).val = _
    rw [hS]; omega

/-! ## The blocks tile the table -/

/-- An entry of the table lies in point `t`'s block exactly when each coordinate lies in the block's range. -/
theorem in_block (t : Fin cfg0.N) (i : S8192x8192.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v6).slice (win0_4.rect t)).set ↔ _
  rw [View.set_slice_whole, Rect.mem_set_unit]
  exact Iff.rfl

/-- Every entry `(r, s)` lies in the block of the point at `(r / 1024, s / 2048)`, which writes back. -/
theorem tiled (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_reached ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [in_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

/-- After the last point the result array is the table. -/
theorem result_array (c : Dev nD) : (dats m 0 c).arrAt 4 cfg0.N = table (matA m c) (matB m c) :=
  (dats m 0 c).arrAt_eq_of_cover 4 (table (matA m c) (matB m c)) (fun t _ => written_block m c t) tiled

/-- Every weakly fair execution of the kernel program ends with the result array at the table of squared distances of
    the two matrices as launched, and the matrices unchanged. -/
theorem run : θ_run defs (onTc (τ := τ) (main (F := Ideal))) ⟨m, fun _ => 0, ρ⟩ fun r => ∀ c : Dev nD,
      r.2.mem ((c : Thread nD τ).loc main_v6) = table (matA m c) (matB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.Dist

end
-- ==== Proof.lean ====
/-
  Pairwise squared Euclidean distances between the rows of two 8192 × 128 matrices, in the expanded form
  `‖a_r‖² + ‖b_s‖² − 2 ⟨a_r, b_s⟩`.
  Both programs first sum each row's squares on the host.  The kernel then walks an 8 × 4 grid of 1024 × 2048 blocks of
  the table; at each it contracts the two row blocks over their 128 coordinates and stores, entry by entry, the sum of
  the two rows' squared norms minus twice that contraction.  The reference forms the whole contraction at once and
  combines it with the broadcast norms in the same order.  Over the extended reals the contraction, blocked or whole,
  is the same sum of 128 products, and narrowing its operands to sixteen bits is the identity, so entry `(r, s)` is the
  same expression on both sides: no algebraic law and no finiteness of the inputs is used, only that the blocks tile
  the table.  The idealization rewrote no operation, so there is nothing to preserve beyond `True`.
-/
import proofs.«155831_j42666205118575_1_alg».proof.Defs
import proofs.«155831_j42666205118575_1_alg».proof.Proof.Gen.Kernel
import proofs.«155831_j42666205118575_1_alg».proof.Proof.Gen.Kernel.Skeleton
import proofs.«155831_j42666205118575_1_alg».proof.Proof.Gen.Kernel.Launch
import proofs.«155831_j42666205118575_1_alg».proof.Proof.Gen.Kernel.Points
import proofs.«155831_j42666205118575_1_alg».proof.Proof.Gen.Kernel.Frame
import proofs.«155831_j42666205118575_1_alg».proof.Proof.Gen.KernelIdeal
import proofs.«155831_j42666205118575_1_alg».proof.Proof.Gen.KernelIdeal.Skeleton
import proofs.«155831_j42666205118575_1_alg».proof.Proof.Gen.KernelIdeal.Launch
import proofs.«155831_j42666205118575_1_alg».proof.Proof.Gen.KernelIdeal.Points
import proofs.«155831_j42666205118575_1_alg».proof.Proof.Gen.KernelIdeal.Frame
import proofs.«155831_j42666205118575_1_alg».proof.Proof.Gen.ReferenceIdeal
import proofs.«155831_j42666205118575_1_alg».proof.Proof.Gen.Pre_finite_inputs
import proofs.«155831_j42666205118575_1_alg».proof.Proof.Gen.KernelIdeal.Value
import proofs.«155831_j42666205118575_1_alg».proof.Proof.Gen.ReferenceIdeal.Run
import proofs.«155831_j42666205118575_1_alg».proof.Proof.Gen.ReferenceIdeal.Read
import proofs.«155831_j42666205118575_1_alg».proof.Proof.RefSide
import proofs.«155831_j42666205118575_1_alg».proof.Proof.KernelTable
import Idealize.ShloMosaic.Adequacy
import Idealize.ShloMosaic.Init

noncomputable section

namespace Cert.Proof

open Idealize.ShloMosaic Idealize.SL.Sem Cert.Kernel

/-- The word-level kernel runs and leaves its two matrices as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the table of squared distances of the (agreeing) matrices. -/
theorem same_table : Cert.algebraic_KernelIdeal_ReferenceIdeal := by
  intro m ρ m' ρ' _ hagree
  refine ⟨fun c => Cert.SqDist.table (Cert.KernelIdeal.Dist.matA m c) (Cert.KernelIdeal.Dist.matB m c),
    Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Dist.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, same_table⟩

end Cert.Proof

end
